-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x2 : Shape := ⟨2, ![8192, 2]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x2 32) (main_arg2 : IVec S64 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x2 : Shape := ⟨2, ![8192, 2]⟩
abbrev S64 : Shape := ⟨1, ![64]⟩
abbrev S_ : Shape := ⟨0, ![]⟩
abbrev S8192x2x1 : Shape := ⟨3, ![8192, 2, 1]⟩
abbrev S8 : Shape := ⟨1, ![8]⟩
abbrev S1x8192x2 : Shape := ⟨3, ![1, 8192, 2]⟩
abbrev S8x1x1 : Shape := ⟨3, ![8, 1, 1]⟩
abbrev S8x8192x2 : Shape := ⟨3, ![8, 8192, 2]⟩
abbrev S8x8192 : Shape := ⟨2, ![8, 8192]⟩
abbrev S8x8192x1 : Shape := ⟨3, ![8, 8192, 1]⟩
abbrev S8x8192x4096 : Shape := ⟨3, ![8, 8192, 4096]⟩
abbrev S256x4096 : Shape := ⟨2, ![256, 4096]⟩
abbrev S1x256x1 : Shape := ⟨3, ![1, 256, 1]⟩
abbrev S1x256x4096 : Shape := ⟨3, ![1, 256, 4096]⟩
abbrev S256x1 : Shape := ⟨2, ![256, 1]⟩

abbrev nBuf : Space → Nat
  | .hbm => 23
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x2, .i32⟩
  | .hbm, ⟨2, _⟩ => ⟨S64, .i32⟩
  | .hbm, ⟨3, _⟩ => ⟨S_, .i32⟩
  | .hbm, ⟨4, _⟩ => ⟨S8192x2, .i32⟩
  | .hbm, ⟨5, _⟩ => ⟨S8192x2, .i1⟩
  | .hbm, ⟨6, _⟩ => ⟨S_, .i32⟩
  | .hbm, ⟨7, _⟩ => ⟨S8192x2, .i32⟩
  | .hbm, ⟨8, _⟩ => ⟨S8192x2, .i32⟩
  | .hbm, ⟨9, _⟩ => ⟨S8192x2, .i32⟩
  | .hbm, ⟨10, _⟩ => ⟨S8192x2x1, .i32⟩
  | .hbm, ⟨11, _⟩ => ⟨S8192x2, .i32⟩
  | .hbm, ⟨12, _⟩ => ⟨S8, .i32⟩
  | .hbm, ⟨13, _⟩ => ⟨S1x8192x2, .i32⟩
  | .hbm, ⟨14, _⟩ => ⟨S8x1x1, .i32⟩
  | .hbm, ⟨15, _⟩ => ⟨S8x8192x2, .i32⟩
  | .hbm, ⟨16, _⟩ => ⟨S8x8192x2, .i32⟩
  | .hbm, ⟨17, _⟩ => ⟨S8x8192x2, .i1⟩
  | .hbm, ⟨18, _⟩ => ⟨S_, .i1⟩
  | .hbm, ⟨19, _⟩ => ⟨S8x8192, .i1⟩
  | .hbm, ⟨20, _⟩ => ⟨S8x8192, .f32⟩
  | .hbm, ⟨21, _⟩ => ⟨S8x8192x1, .f32⟩
  | .hbm, ⟨22, _⟩ => ⟨S8x8192x4096, .f32⟩
  | .local _ .vmem, ⟨0, _⟩ => ⟨S256x4096, .f32⟩
  | .local _ .vmem, ⟨1, _⟩ => ⟨S256x4096, .f32⟩
  | .local _ .vmem, ⟨2, _⟩ => ⟨S1x256x1, .f32⟩
  | .local _ .vmem, ⟨3, _⟩ => ⟨S1x256x1, .f32⟩
  | .local _ .vmem, ⟨4, _⟩ => ⟨S1x256x4096, .f32⟩
  | .local _ .vmem, ⟨5, _⟩ => ⟨S1x256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  bcast_S8192x2_S1x8192x2_1_2 : S8192x2.BroadcastsInDim S1x8192x2 (![1, 2] : Fin 2 → Fin S1x8192x2.rank)
  bcast_S8_S8x1x1_0 : S8.BroadcastsInDim S8x1x1 (![0] : Fin 1 → Fin S8x1x1.rank)
  bcast_S1x8192x2_S8x8192x2_0_1_2 : S1x8192x2.BroadcastsInDim S8x8192x2 (![0, 1, 2] : Fin 3 → Fin S8x8192x2.rank)
  bcast_S8x1x1_S8x8192x2_0_1_2 : S8x1x1.BroadcastsInDim S8x8192x2 (![0, 1, 2] : Fin 3 → Fin S8x8192x2.rank)
  reducesTo_S8x8192x2_S8x8192_d2 : S8x8192x2.ReducesTo [2] S8x8192
  h_S_ : 0 < S_.numel
  bcast_S8x8192_S8x8192x1_0_1 : S8x8192.BroadcastsInDim S8x8192x1 (![0, 1] : Fin 2 → Fin S8x8192x1.rank)
  inb_S256x4096_S256x4096_0_0 : ∀ a, (![0, 0] : Fin 2 → Nat) a + S256x4096.size a ≤ S256x4096.size a
  h_S256x4096 : 0 < S256x4096.numel
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  gather_S64_S8192x2x1_S8192x2_n_0_n_n_0_2_1_wf : GatherDims.WF S64 S8192x2x1 S8192x2 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S8x8192x1.size a
  hwx0_1 : ∀ i : grid0.Coords, EltTy.bits .f32 = 32 ∨ (Rect.block (s := S8x8192x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S8x8192x4096.size a
  hwx0_2 : ∀ i : grid0.Coords, EltTy.bits .f32 = 32 ∨ (Rect.block (s := S8x8192x4096) S1x256x4096.size (cc0_transform_2 i) (hinb0_2 i)).WholeWords (EltTy.packing .f32)

variable [Facts₀]

def gather_S64_S8192x2x1_S8192x2_n_0_n_n_0_2_1 : GatherDims S64 S8192x2x1 S8192x2 where
  offsetDims := []
  collapsedSliceDims := [0]
  operandBatchingDims := []
  startIndicesBatchingDims := []
  startIndexMap := [0]
  indexVectorDim := 2
  sliceSizes := ![1]
  wf := gather_S64_S8192x2x1_S8192x2_n_0_n_n_0_2_1_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x2 : Shape := ⟨2, ![8192, 2]⟩
abbrev S64 : Shape := ⟨1, ![64]⟩
abbrev S_ : Shape := ⟨0, ![]⟩
abbrev S8192x2x1 : Shape := ⟨3, ![8192, 2, 1]⟩
abbrev S8 : Shape := ⟨1, ![8]⟩
abbrev S1x8192x2 : Shape := ⟨3, ![1, 8192, 2]⟩
abbrev S8x1x1 : Shape := ⟨3, ![8, 1, 1]⟩
abbrev S8x8192x2 : Shape := ⟨3, ![8, 8192, 2]⟩
abbrev S8x8192 : Shape := ⟨2, ![8, 8192]⟩
abbrev S8x8192x1 : Shape := ⟨3, ![8, 8192, 1]⟩
abbrev S1x8192x4096 : Shape := ⟨3, ![1, 8192, 4096]⟩
abbrev S8x8192x4096 : Shape := ⟨3, ![8, 8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2, .i32⟩
  | .hbm, ⟨2, _⟩ => ⟨S64, .i32⟩
  | .hbm, ⟨3, _⟩ => ⟨S_, .i32⟩
  | .hbm, ⟨4, _⟩ => ⟨S8192x2, .i32⟩
  | .hbm, ⟨5, _⟩ => ⟨S8192x2, .i1⟩
  | .hbm, ⟨6, _⟩ => ⟨S_, .i32⟩
  | .hbm, ⟨7, _⟩ => ⟨S8192x2, .i32⟩
  | .hbm, ⟨8, _⟩ => ⟨S8192x2, .i32⟩
  | .hbm, ⟨9, _⟩ => ⟨S8192x2, .i32⟩
  | .hbm, ⟨10, _⟩ => ⟨S8192x2x1, .i32⟩
  | .hbm, ⟨11, _⟩ => ⟨S8192x2, .i32⟩
  | .hbm, ⟨12, _⟩ => ⟨S8, .i32⟩
  | .hbm, ⟨13, _⟩ => ⟨S1x8192x2, .i32⟩
  | .hbm, ⟨14, _⟩ => ⟨S8x1x1, .i32⟩
  | .hbm, ⟨15, _⟩ => ⟨S8x8192x2, .i32⟩
  | .hbm, ⟨16, _⟩ => ⟨S8x8192x2, .i32⟩
  | .hbm, ⟨17, _⟩ => ⟨S8x8192x2, .i1⟩
  | .hbm, ⟨18, _⟩ => ⟨S_, .i1⟩
  | .hbm, ⟨19, _⟩ => ⟨S8x8192, .i1⟩
  | .hbm, ⟨20, _⟩ => ⟨S8x8192x1, .i1⟩
  | .hbm, ⟨21, _⟩ => ⟨S8x8192x1, .f32⟩
  | .hbm, ⟨22, _⟩ => ⟨S1x8192x4096, .f32⟩
  | .hbm, ⟨23, _⟩ => ⟨S8x8192x4096, .f32⟩
  | .hbm, ⟨24, _⟩ => ⟨S8x8192x4096, .f32⟩
  | .hbm, ⟨25, _⟩ => ⟨S8x8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  bcast_S8192x2_S1x8192x2_1_2 : S8192x2.BroadcastsInDim S1x8192x2 (![1, 2] : Fin 2 → Fin S1x8192x2.rank)
  bcast_S8_S8x1x1_0 : S8.BroadcastsInDim S8x1x1 (![0] : Fin 1 → Fin S8x1x1.rank)
  bcast_S1x8192x2_S8x8192x2_0_1_2 : S1x8192x2.BroadcastsInDim S8x8192x2 (![0, 1, 2] : Fin 3 → Fin S8x8192x2.rank)
  bcast_S8x1x1_S8x8192x2_0_1_2 : S8x1x1.BroadcastsInDim S8x8192x2 (![0, 1, 2] : Fin 3 → Fin S8x8192x2.rank)
  reducesTo_S8x8192x2_S8x8192_d2 : S8x8192x2.ReducesTo [2] S8x8192
  h_S_ : 0 < S_.numel
  bcast_S8x8192_S8x8192x1_0_1 : S8x8192.BroadcastsInDim S8x8192x1 (![0, 1] : Fin 2 → Fin S8x8192x1.rank)
  bcast_S8192x4096_S1x8192x4096_1_2 : S8192x4096.BroadcastsInDim S1x8192x4096 (![1, 2] : Fin 2 → Fin S1x8192x4096.rank)
  bcast_S8x8192x1_S8x8192x4096_0_1_2 : S8x8192x1.BroadcastsInDim S8x8192x4096 (![0, 1, 2] : Fin 3 → Fin S8x8192x4096.rank)
  bcast_S1x8192x4096_S8x8192x4096_0_1_2 : S1x8192x4096.BroadcastsInDim S8x8192x4096 (![0, 1, 2] : Fin 3 → Fin S8x8192x4096.rank)
  gather_S64_S8192x2x1_S8192x2_n_0_n_n_0_2_1_wf : GatherDims.WF S64 S8192x2x1 S8192x2 [] [0] [] [0] [] 2 ![1]

variable [Facts₀]

def gather_S64_S8192x2x1_S8192x2_n_0_n_n_0_2_1 : GatherDims S64 S8192x2x1 S8192x2 where
  offsetDims := []
  collapsedSliceDims := [0]
  operandBatchingDims := []
  startIndicesBatchingDims := []
  startIndexMap := [0]
  indexVectorDim := 2
  sliceSizes := ![1]
  wf := gather_S64_S8192x2x1_S8192x2_n_0_n_n_0_2_1_wf

class Facts : Prop extends Facts₀ where

variable [Facts]
-- ==== Proof.Spec.lean ====
/-
  Token dispatch as ONE function of the arguments.

  Every token row `x[t, ·]` is copied onto each of the 8 devices, and copy `d` is kept or zeroed by the routing
  entry `r[d, t]`:  `out[d, t, h] = x[t, h] · r[d, t]`.  The routing entries arrive on a trailing unit axis
  (`r : [8, 8192, 1]`), which is how both programs hold them before the product.

  One program forms the product as `x · r`, the other as `r · x`; on the extended reals multiplication commutes with no
  condition on the factors (`0 · ±∞` is `0` on either side), so the two agree on every input (`dispatch_comm`).
-/
import Idealize.ShloMosaic.PureOps.Ideal
import Idealize.ShloMosaic.Lib.ValueIdx

noncomputable section

open Idealize.ShloMosaic Idealize.ShloMosaic.ValueIdx

namespace Cert.Dispatch

/-- The tokens: 8192 rows of 4096 features. -/
abbrev Tokens : Shape := ⟨2, ![8192, 4096]⟩
/-- The routing entries, device by token, on a trailing unit axis. -/
abbrev RouteCol : Shape := ⟨3, ![8, 8192, 1]⟩
/-- The dispatched copies: device by token by feature. -/
abbrev Copies : Shape := ⟨3, ![8, 8192, 4096]⟩

variable {F : FTy → Type} [FloatOps F]

/-- The token entry `(t, h)` that copy `(d, t, h)` is made from. -/
abbrev tokOf (i : Copies.Idx) : Tokens.Idx :=
  ix2 (⟨(i 1).val, (i 1).isLt⟩ : Fin 8192) (⟨(i 2).val, (i 2).isLt⟩ : Fin 4096)

/-- The routing entry `(d, t, 0)` that decides copy `(d, t, h)`. -/
abbrev colOf (i : Copies.Idx) : RouteCol.Idx :=
  ix3 (⟨(i 0).val, (i 0).isLt⟩ : Fin 8) (⟨(i 1).val, (i 1).isLt⟩ : Fin 8192) (0 : Fin 1)

/-- `out[d, t, h] = x[t, h] · r[d, t, 0]`. -/
def dispatch (x : FVec F Tokens .f32) (r : FVec F RouteCol .f32) : FVec F Copies .f32 :=
  fun i => FloatOps.mulf (x (tokOf i)) (r (colOf i))

theorem dispatch_apply (x : FVec F Tokens .f32) (r : FVec F RouteCol .f32) (i : Copies.Idx) :
    dispatch x r i = FloatOps.mulf (x (tokOf i)) (r (colOf i)) := rfl

/-- On the extended reals the product in the other order is the same copy. -/
theorem dispatch_comm (x : FVec Ideal Tokens .f32) (r : FVec Ideal RouteCol .f32) (i : Copies.Idx) :
    FloatOps.mulf (r (colOf i)) (x (tokOf i)) = dispatch x r i := by
  rw [dispatch_apply, Ideal.mulf_def, Ideal.mulf_def, mul_comm]

end Cert.Dispatch

end
-- ==== Proof.KernelBlocks.lean ====
/-
  The kernel's result array as `Dispatch.dispatch` of the arrays the region finds.

  The grid is 32 token blocks by 8 devices, the device axis running fastest: point `t` handles token rows
  `256·(t / 8) … 256·(t / 8) + 255` for device `t % 8`.  At that point the body multiplies the [256, 4096] block of tokens by
  the [1, 256, 1] block of routing entries, broadcast along the features, and stores the product as block
  `(t % 8, t / 8, 0)` of the [8, 8192, 4096] result.  Entry `(0, p, q)` of that block is token entry `(256·(t/8) + p, q)` times
  routing entry `(t % 8, 256·(t/8) + p, 0)`: exactly `dispatch` at the array index under it.  The 256 blocks tile the result,
  so the array ends holding `dispatch` everywhere.
-/
import proofs.«116656_j15822659519277_1_alg».proof.Proof.Gen.KernelIdeal.Value
import proofs.«116656_j15822659519277_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.Dispatch

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What the body leaves in the output block, entry by entry, for ANY two input blocks: the token block at `(p, q)`
    times the routing block at `(0, p, 0)`. -/
theorem block_entry (x0 : Vec F S256x4096 .f32) (x1 : Vec F S1x256x1 .f32) (y : S1x256x4096.Idx) :
    out0_2 x0 x1 y = FloatOps.mulf (x0 (ix2_0 y)) (x1 (ix2_1 y)) := by
  unfold out0_2
  rw [canon2_eq, View.ld_unit_zero (S := S256x4096) zero2, View.ld_unit_zero (S := S1x256x1) zero3]

/-- Where each window's block sits at point `t`, decided over the 256 points: the result's block is
    `(t % 8, t / 8, 0)`, the tokens' `(t / 8, 0)`, the routing entries' `(t % 8, t / 8, 0)`. -/
theorem block_indices : ∀ t : Fin cfg0.N,
    win0_2.index t (0 : Fin 3) = t.val % 8 ∧ win0_2.index t (1 : Fin 3) = t.val / 8 ∧ win0_2.index t (2 : Fin 3) = 0
    ∧ win0_0.index t (0 : Fin 2) = t.val / 8 ∧ win0_0.index t (1 : Fin 2) = 0
    ∧ win0_1.index t (0 : Fin 3) = t.val % 8 ∧ win0_1.index t (1 : Fin 3) = t.val / 8 ∧ win0_1.index t (2 : Fin 3) = 0 :=
  (by decide +kernel : ∀ t : Fin grid0.N, _)

/-- WHAT POINT `t` WRITES BACK is block `t` of `dispatch` of the two arrays the region finds. -/
theorem flushed_eq (c : Dev nD) (t : Fin cfg0.N) :
    (dats m 0 c).flushed 2 t
      = ((cfg0.win 2).blk t).view.read (Elt F) (dispatch (V m c main_arg0) (V m c main_v15)) := by
  rw [flushed2]
  obtain ⟨e0, e1, e2, e3, e4, e5, e6, e7⟩ := block_indices t
  funext j
  have hj0 : (j 0).val < 1 := (j 0).isLt
  have hj1 : (j 1).val < 256 := (j 1).isLt
  have hj2 : (j 2).val < 4096 := (j 2).isLt
  show out0_2 (iblk m c 0 t) (iblk m c 1 t) j = dispatch (V m c main_arg0) (V m c main_v15) (((cfg0.win 2).blk t).view.emb j)
  rw [block_entry, dispatch_apply]
  unfold iblk
  rw [View.read_apply, View.read_apply]
  show FloatOps.mulf (V m c main_arg0 (((cfg0.win 0).blk t).view.emb (ix2_0 j))) (V m c main_v15 (((cfg0.win 1).blk t).view.emb (ix2_1 j)))
     = FloatOps.mulf (V m c main_arg0 (tokOf (((cfg0.win 2).blk t).view.emb j))) (V m c main_v15 (colOf (((cfg0.win 2).blk t).view.emb j)))
  have h0 : ((cfg0.win 0).blk t).view.emb (ix2_0 j) = tokOf (((cfg0.win 2).blk t).view.emb j) := by
    funext a; apply Fin.ext
    match a with
    | ⟨0, _⟩ => show win0_0.index t (0 : Fin 2) * 256 + 1 * (j 1).val = win0_2.index t (1 : Fin 3) * 256 + 1 * (j 1).val; omega
    | ⟨1, _⟩ => show win0_0.index t (1 : Fin 2) * 4096 + 1 * (j 2).val = win0_2.index t (2 : Fin 3) * 4096 + 1 * (j 2).val; omega
  have h1 : ((cfg0.win 1).blk t).view.emb (ix2_1 j) = colOf (((cfg0.win 2).blk t).view.emb j) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 256 + 1 * (j 1).val = win0_2.index t (1 : Fin 3) * 256 + 1 * (j 1).val; omega
    | ⟨2, _⟩ => show win0_1.index t (2 : Fin 3) * 1 + 1 * 0 = 0; omega
  rw [h0, h1]

/-- An index of the result is in point `t`'s block iff each coordinate is in the block's range on its axis. -/
theorem mem_block (t : Fin cfg0.N) (i : S8x8192x4096.Idx) :
    i ∈ ((cfg0.win 2).blk t).view.set ↔ ∀ a : Fin 3, win0_2.index t a * S1x256x4096.size a ≤ (i a).val ∧ (i a).val < win0_2.index t a * S1x256x4096.size a + S1x256x4096.size a := by
  show i ∈ ((View.whole main_v16).slice (win0_2.rect t)).set ↔ _
  rw [View.set_slice_whole, Rect.mem_set_unit]
  exact Iff.rfl

/-- Every copy `(d, t, h)` lies in the block of the point `(t / 256)·8 + d`. -/
theorem covered (i : S8x8192x4096.Idx) :
    ∃ t : Fin cfg0.N, (cfg0.win 2).flush t = true ∧ i ∈ ((cfg0.win 2).blk t).view.set := by
  have hi0 : (i 0).val < 8 := (i 0).isLt
  have hi1 : (i 1).val < 8192 := (i 1).isLt
  have hi2 : (i 2).val < 4096 := (i 2).isLt
  have hN : cfg0.N = 256 := N_0
  let t : Fin cfg0.N := ⟨(i 1).val / 256 * 8 + (i 0).val, by rw [hN]; omega⟩
  obtain ⟨e0, e1, e2, -, -, -, -, -⟩ := block_indices t
  have ht : t.val = (i 1).val / 256 * 8 + (i 0).val := rfl
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 4096 ≤ (i 2).val ∧ (i 2).val < win0_2.index t (2 : Fin 3) * 4096 + 4096; omega

/-- THE RESULT ARRAY after the run is `dispatch` of the tokens and of the routing entries as the region finds them. -/
theorem final (c : Dev nD) : (dats m 0 c).arrAt 2 cfg0.N = dispatch (V m c main_arg0) (V m c main_v15) :=
  (dats m 0 c).arrAt_eq_of_cover 2 (dispatch (V m c main_arg0) (V m c main_v15)) (fun t _ => flushed_eq m c t) covered

end Cert.KernelIdeal.Blocks

end
-- ==== Proof.KernelRun.lean ====
/-
  The kernel's run, read over the ARGUMENT arrays.

  Before the region the host computes the routing table: `routed[d, t]` is 1 when one of token `t`'s two chosen experts
  is mapped to device `d` (the expert indices wrapped once when negative, the mapping looked up, the device compared
  with `0 … 7`, the two comparisons joined by "or"), and 0 otherwise.  The region finds it converted to a number and given a
  trailing unit axis (`routeCol`), and finds the tokens as launched.  With `Blocks.final` the result array after the run is
  `dispatch tokens (routeCol (routed indices mapping))`.
-/
import proofs.«116656_j15822659519277_1_alg».proof.Proof.KernelBlocks
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen Cert.KernelIdeal.Value Cert.Dispatch

variable {F : FTy → Type} [FloatOps F]
variable (m : (ℓ : Loc nD τ sig) → Buf (Elt F) ℓ) (ρ : Dev nD → PrngReg)

/-- The routing table `[8, 8192]` of 0/1 words, from the expert indices `[8192, 2]` and the expert-to-device mapping `[64]`. -/
def routed (idx : (⟨S8192x2, .i32⟩ : BufTy).Contents (Elt F)) (map : (⟨S64, .i32⟩ : BufTy).Contents (Elt F)) :
    (⟨S8x8192, .i1⟩ : BufTy).Contents (Elt F) :=
  Host.reduce IntOp.ori (cmpi .eq (broadcastInDim S8x8192x2 ![0, 1, 2] bcast_S1x8192x2_S8x8192x2_0_1_2 (broadcastInDim S1x8192x2 ![1, 2] bcast_S8192x2_S1x8192x2_1_2 (Host.gather gather_S64_S8192x2x1_S8192x2_n_0_n_n_0_2_1 map (broadcastInDim S8192x2x1 ![0, 1] bcast_S8192x2_S8192x2x1_0_1 (select (cmpi .slt idx (broadcastInDim S8192x2 ![] bcast_S_S8192x2 (constantI S_ 32 0#32))) (addi idx (broadcastInDim S8192x2 ![] bcast_S_S8192x2 (constantI S_ 32 64#32))) idx))))) (broadcastInDim S8x8192x2 ![0, 1, 2] bcast_S8x1x1_S8x8192x2_0_1_2 (broadcastInDim S8x1x1 ![0] bcast_S8_S8x1x1_0 (iotaInDim S8 32 0)))) (constantI S_ 1 0#1) reducesTo_S8x8192x2_S8x8192_d2 h_S_

/-- A 0/1 table as numbers on a trailing unit axis. -/
def routeCol (b : (⟨S8x8192, .i1⟩ : BufTy).Contents (Elt F)) : (⟨S8x8192x1, .f32⟩ : BufTy).Contents (Elt F) :=
  broadcastInDim S8x8192x1 ![0, 1] bcast_S8x8192_S8x8192x1_0_1 (uitofp .f32 b)

/-- The region finds the routing entries at `routeCol` of the routing table of the launched indices and mapping. -/
theorem V_routing (c : Dev nD) :
    (V m c main_v15 : S8x8192x1.Idx → Elt F .f32)
      = routeCol (routed (m ((c : Thread nD τ).loc main_arg1)) (m ((c : Thread nD τ).loc main_arg2))) := by
  dsimp only [V, hostOps0]
  after_results
  rfl

/-- The run, read: the result array at `dispatch` of the arguments, the arguments unchanged. -/
theorem run : θ_run defs (onTc (τ := τ) (main (F := F))) ⟨m, fun _ => 0, ρ⟩ fun r => ∀ c : Dev nD,
      r.2.mem ((c : Thread nD τ).loc main_v16)
        = dispatch (m ((c : Thread nD τ).loc main_arg0))
            (routeCol (routed (m ((c : Thread nD τ).loc main_arg1)) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_arg0, V_routing])), (h c).2⟩)
    (run_blocks m ρ)

end Cert.KernelIdeal.Blocks

end
-- ==== Proof.RefValue.lean ====
/-
  The reference's result as `Dispatch.dispatch`.

  The reference broadcasts the routing entries `[8, 8192, 1]` along the features and the tokens `[8192, 4096]` along the
  devices, and multiplies: at `(d, t, h)` it holds `r[d, t, 0] · x[t, h]`.  That is `dispatch x r` at `(d, t, h)` with the two
  factors in the other order (`Dispatch.dispatch_comm`).
-/
import proofs.«116656_j15822659519277_1_alg».proof.Proof.Gen.ReferenceIdeal.Read
import proofs.«116656_j15822659519277_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.Dispatch

/-- The routing entry the reference reads for copy `(d, t, h)` is `(d, t, 0)`. -/
theorem route_index (i : S8x8192x4096.Idx) : idx_main_v17 i = colOf i :=
  funext fun a => Fin.ext (by match a with | ⟨0, _⟩ => rfl | ⟨1, _⟩ => rfl | ⟨2, _⟩ => rfl)

/-- The token entry the reference reads for copy `(d, t, h)` is `(t, h)`. -/
theorem token_index (i : S8x8192x4096.Idx) : idx_main_v16 (idx_main_v18 i) = tokOf i :=
  funext fun a => Fin.ext (by match a with | ⟨0, _⟩ => rfl | ⟨1, _⟩ => rfl)

/-- The reference's result is `dispatch` of the tokens and of its own routing entries (`val_main_v15`: the routing table
    given its unit axis, then converted to numbers). -/
theorem result_eq (x0 : (⟨S8192x4096, .f32⟩ : BufTy).Contents (Elt Ideal)) (x1 : (⟨S8192x2, .i32⟩ : BufTy).Contents (Elt Ideal))
    (x2 : (⟨S64, .i32⟩ : BufTy).Contents (Elt Ideal)) :
    (val_main_v19 (F := Ideal) x0 x1 x2 : FVec Ideal Copies .f32) = dispatch (F := Ideal) x0 (val_main_v15 (F := Ideal) x1 x2) := by
  funext i
  rw [val_main_v19_apply, val_main_v17_apply, val_main_v18_apply, val_main_v16_apply, route_index, token_index]
  exact dispatch_comm x0 (val_main_v15 (F := Ideal) x1 x2) i

end Cert.ReferenceIdeal.RefValue

end
-- ==== Proof.SameRouting.lean ====
/-
  Both programs hold the SAME routing entries.

  The two host computations of the routing table are the same operations of the expert indices and of the mapping, in the
  same order.  The kernel's program then converts the 0/1 table to numbers and gives it a trailing unit axis; the reference
  gives it the unit axis and then converts.  Conversion acts entry by entry and the unit axis only renames the entry
  `(d, t)` to `(d, t, 0)`, so at every index both read the number of the table's entry `(d, t)`.
-/
import proofs.«116656_j15822659519277_1_alg».proof.Proof.KernelRun
import proofs.«116656_j15822659519277_1_alg».proof.Proof.RefValue

noncomputable section

open Idealize.ShloMosaic Idealize.ShloMosaic.TcCoe Idealize.SL.Sem

namespace Cert.Routing

/-- The reference's routing entries are the kernel program's, as functions of the indices and the mapping. -/
theorem same (idx : (⟨Cert.ReferenceIdeal.S8192x2, .i32⟩ : BufTy).Contents (Elt Ideal))
    (map : (⟨Cert.ReferenceIdeal.S64, .i32⟩ : BufTy).Contents (Elt Ideal)) :
    Cert.ReferenceIdeal.Read.val_main_v15 (F := Ideal) idx map
      = Cert.KernelIdeal.Blocks.routeCol (F := Ideal) (Cert.KernelIdeal.Blocks.routed (F := Ideal) idx map) := by
  funext j
  rfl

end Cert.Routing

end
-- ==== Proof.lean ====
/-
  The certificate of the token-dispatch kernel against its jnp reference, over the extended reals.

  Both programs compute the 0/1 routing table on the host (which devices hold one of a token's two chosen experts) and then
  form `out[d, t, h] = x[t, h] · routed[d, t]`: the kernel block by block over a 32 × 8 grid as `x · r`, the reference in one
  broadcast product as `r · x`.  The result array of each is `Dispatch.dispatch` of the tokens and of the routing entries
  (Proof/KernelBlocks.lean and Proof/KernelRun.lean for the kernel; Proof/RefValue.lean for the reference), the routing entries
  of the two are the same function of the arguments (Proof/SameRouting.lean), and multiplication on the extended reals
  commutes (Proof/Spec.lean), so no use is made of the inputs being finite.  The ideal pass rewrote nothing, so `preserves`
  has no conjunct.
-/
import proofs.«116656_j15822659519277_1_alg».proof.Defs
import proofs.«116656_j15822659519277_1_alg».proof.Proof.Gen.Kernel
import proofs.«116656_j15822659519277_1_alg».proof.Proof.Gen.Kernel.Skeleton
import proofs.«116656_j15822659519277_1_alg».proof.Proof.Gen.Kernel.Launch
import proofs.«116656_j15822659519277_1_alg».proof.Proof.Gen.Kernel.Points
import proofs.«116656_j15822659519277_1_alg».proof.Proof.Gen.Kernel.Frame
import proofs.«116656_j15822659519277_1_alg».proof.Proof.Gen.KernelIdeal
import proofs.«116656_j15822659519277_1_alg».proof.Proof.Gen.KernelIdeal.Skeleton
import proofs.«116656_j15822659519277_1_alg».proof.Proof.Gen.KernelIdeal.Launch
import proofs.«116656_j15822659519277_1_alg».proof.Proof.Gen.KernelIdeal.Points
import proofs.«116656_j15822659519277_1_alg».proof.Proof.Gen.KernelIdeal.Frame
import proofs.«116656_j15822659519277_1_alg».proof.Proof.Gen.ReferenceIdeal
import proofs.«116656_j15822659519277_1_alg».proof.Proof.Gen.Pre_finite_inputs
import proofs.«116656_j15822659519277_1_alg».proof.Proof.Gen.KernelIdeal.Value
import proofs.«116656_j15822659519277_1_alg».proof.Proof.Gen.ReferenceIdeal.Run
import proofs.«116656_j15822659519277_1_alg».proof.Proof.Gen.ReferenceIdeal.Read
import proofs.«116656_j15822659519277_1_alg».proof.Proof.SameRouting
import Idealize.ShloMosaic.Adequacy
import Idealize.ShloMosaic.Init

noncomputable section

namespace Cert.Proof

open Idealize.ShloMosaic Idealize.SL.Sem Cert.Kernel

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From arguments that agree, both result arrays end at `dispatch tokens (routeCol (routed indices mapping))`. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, Cert.Routing.same,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
